-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4096x1024 .f32) (main_arg4 : FVec F S4096x1024 .f32) (main_arg5 : FVec F S4096 .f32) (main_arg6 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1x4096 : Shape := ⟨2, ![1, 4096]⟩
abbrev S512x1024 : Shape := ⟨2, ![512, 1024]⟩
abbrev S512x4096 : Shape := ⟨2, ![512, 4096]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096x1024, .bf16⟩
  | .hbm, ⟨8, _⟩ => ⟨S4096x1024, .bf16⟩
  | .hbm, ⟨9, _⟩ => ⟨S1x4096, .f32⟩
  | .hbm, ⟨10, _⟩ => ⟨S1x4096, .f32⟩
  | .hbm, ⟨11, _⟩ => ⟨S16384x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S16384x1024.size a
  hwx0_7 : ∀ i : grid0.Coords, EltTy.bits .f32 = 32 ∨ (Rect.block (s := S16384x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S16384x1024.size a
  hwx0_8 : ∀ i : grid0.Coords, EltTy.bits .f32 = 32 ∨ (Rect.block (s := S16384x1024) S512x1024.size (cc0_transform_8 i) (hinb0_8 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S1024x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  bcast_S_S16384x1024 : S_.BroadcastsInDim S16384x1024 (![] : Fin 0 → Fin S16384x1024.rank)
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.CellSpec.lean ====
/-
  One step of a long short-term memory cell over the extended reals, as whole-array functions of its seven arguments.

  For a batch row `r` and a gate column `n` (of 4096 = 4 × 1024) the pre-activation is
      pre r n = (∑ₖ x(r,k)·Wi(n,k) + bi(n)) + (∑ₖ h(r,k)·Wh(n,k) + bh(n)),
  the four gates of hidden unit `j` are read at the columns `j`, `1024 + j`, `2048 + j`, `3072 + j`
  (input, forget, candidate, output), and
      cell r j   = c(r,j) · σ(pre r (1024+j)) + σ(pre r j) · tanh(pre r (2048+j)),
      hidden r j = tanh(cell r j) · σ(pre r (3072+j)),
  with σ the logistic function `1 / (1 + e⁻ᵖ)` and its values at the infinities.

  Two scalar laws close the gap between the two programs: the four summands of the pre-activation may be grouped
  either way (addition on the extended reals is commutative and associative; no finiteness is used), and the logistic
  function is the quotient `1 / (1 + exp (−p))` spelt with the word of the float one.
-/
import Idealize.ShloMosaic.PureOps.Ideal.Laws
import Idealize.ShloMosaic.Lib.ValueIdx
import Idealize.ShloMosaic.Lib.IdealHost

noncomputable section

namespace Cert.Cell

open Idealize.ShloMosaic Idealize.ShloMosaic.ValueIdx

/-- Row `r` of an activation array against row `n` of a weight array. -/
def rowDot (a : FVec Ideal ⟨2, ![16384, 1024]⟩ .f32) (w : FVec Ideal ⟨2, ![4096, 1024]⟩ .f32) (r : Fin 16384) (n : Fin 4096) : EReal :=
  ∑ k : Fin 1024, a (ix2 r k) * w (ix2 n k)

/-- The pre-activation of gate column `n` for batch row `r`. -/
def pre (x h : FVec Ideal ⟨2, ![16384, 1024]⟩ .f32) (wi wh : FVec Ideal ⟨2, ![4096, 1024]⟩ .f32)
    (bi bh : FVec Ideal ⟨1, ![4096]⟩ .f32) (r : Fin 16384) (n : Fin 4096) : EReal :=
  (rowDot x wi r n + bi (ix1 n)) + (rowDot h wh r n + bh (ix1 n))

/-- The column of gate `g` (0 input, 1 forget, 2 candidate, 3 output) for hidden unit `j`. -/
def gateCol (g : Fin 4) (j : Fin 1024) : Fin 4096 := ⟨1024 * g.val + j.val, by have := g.isLt; have := j.isLt; omega⟩

/-- The new cell state at `(r, j)`. -/
def cellAt (x h c : FVec Ideal ⟨2, ![16384, 1024]⟩ .f32) (wi wh : FVec Ideal ⟨2, ![4096, 1024]⟩ .f32)
    (bi bh : FVec Ideal ⟨1, ![4096]⟩ .f32) (r : Fin 16384) (j : Fin 1024) : EReal :=
  c (ix2 r j) * Ideal.logistic (pre x h wi wh bi bh r (gateCol 1 j))
    + Ideal.logistic (pre x h wi wh bi bh r (gateCol 0 j)) * Ideal.tanh (pre x h wi wh bi bh r (gateCol 2 j))

/-- The new hidden state at `(r, j)`. -/
def hiddenAt (x h c : FVec Ideal ⟨2, ![16384, 1024]⟩ .f32) (wi wh : FVec Ideal ⟨2, ![4096, 1024]⟩ .f32)
    (bi bh : FVec Ideal ⟨1, ![4096]⟩ .f32) (r : Fin 16384) (j : Fin 1024) : EReal :=
  Ideal.tanh (cellAt x h c wi wh bi bh r j) * Ideal.logistic (pre x h wi wh bi bh r (gateCol 3 j))

/-- The new cell state, as an array. -/
def cell (x h c : FVec Ideal ⟨2, ![16384, 1024]⟩ .f32) (wi wh : FVec Ideal ⟨2, ![4096, 1024]⟩ .f32)
    (bi bh : FVec Ideal ⟨1, ![4096]⟩ .f32) : FVec Ideal ⟨2, ![16384, 1024]⟩ .f32 :=
  fun i => cellAt x h c wi wh bi bh (i 0) (i 1)

/-- The new hidden state, as an array. -/
def hidden (x h c : FVec Ideal ⟨2, ![16384, 1024]⟩ .f32) (wi wh : FVec Ideal ⟨2, ![4096, 1024]⟩ .f32)
    (bi bh : FVec Ideal ⟨1, ![4096]⟩ .f32) : FVec Ideal ⟨2, ![16384, 1024]⟩ .f32 :=
  fun i => hiddenAt x h c wi wh bi bh (i 0) (i 1)

/-- The two products first and the two biases after them is the same sum as each product with its own bias. -/
theorem regroup (a b p q : EReal) : ((a + b) + p) + q = (a + p) + (b + q) := by
  rw [add_assoc (a + b) p q, add_add_add_comm]

/-- The quotient `1 / (1 + exp (−p))`, its two ones spelt as the float word of one, is the logistic function. -/
theorem logistic_spelt (p : EReal) :
    FloatOps.hostDivf (F := Ideal) (φ := .f32) (FloatOps.ofBits .f32 0x3F800000#32)
      (FloatOps.addf (FloatOps.ofBits .f32 0x3F800000#32) (FloatOps.hostUnary .exp (FloatOps.hostNegf p))) = Ideal.logistic p := by
  show Ideal.div (Ideal.ofBits .f32 0x3F800000#32) (Ideal.ofBits .f32 0x3F800000#32 + Ideal.exp (-p)) = Ideal.div 1 (1 + Ideal.exp (-p))
  rw [Ideal.ofBits_one_f32]

end Cert.Cell

end
-- ==== Proof.ReferenceCell.lean ====
/-
  The reference program, read one operation at a time, computes the cell step of CellSpec.lean.

  Its summed pre-activation array at `(r, n)` is `pre r n`: each `dot_general` against a transposed weight array is the
  sum over `k` of `a(r,k) · W(n,k)`, each bias reaches row `r` through two broadcasts, and the three additions are in the
  order the specification writes them. Each gate slices that array at its own column offset; the reference spells the
  logistic function as a quotient, which is the logistic function (`logistic_spelt`). The two results are then the
  specification's `cell` and `hidden`, index by index.
-/
import proofs.«124631_j27144193310893_1_alg».proof.Proof.Gen.ReferenceIdeal.Read
import proofs.«124631_j27144193310893_1_alg».proof.Proof.CellSpec

noncomputable section

namespace Cert.ReferenceIdeal.RefCell

open Cert.ReferenceIdeal Cert.ReferenceIdeal.Gen Cert.ReferenceIdeal.Read Idealize.ShloMosaic Idealize.ShloMosaic.ValueIdx
open Cert.Cell (pre rowDot gateCol cellAt hiddenAt cell hidden)

variable (x0 x1 x2 : FVec Ideal S16384x1024 .f32) (x3 x4 : FVec Ideal S4096x1024 .f32) (x5 x6 : FVec Ideal S4096 .f32)

/-- The summed pre-activation array at `(r, n)`. -/
theorem preact_apply (r : Fin 16384) (n : Fin 4096) :
    val_main_v10 (F := Ideal) x0 x1 x3 x4 x5 x6 (ix2 r n) = pre x0 x1 x3 x4 x5 x6 r n := by
  rw [val_main_v10_apply, val_main_v4_apply, val_main_v9_apply, val_main_v1_apply, val_main_v6_apply, val_main_v3_apply,
    val_main_v8_apply, val_main_v2_apply, val_main_v7_apply]
  simp only [val_main_v0_apply, val_main_v5_apply]
  have el : ∀ k : Fin 1024, lidx_main_v1 (ix2 r n) k = ix2 r k := fun k =>
    funext fun a => by match a with | ⟨0, _⟩ => rfl | ⟨1, _⟩ => rfl
  have er : ∀ k : Fin 1024, idx_main_v0 (ridx_main_v1 (ix2 r n) k) = ix2 n k := fun k =>
    funext fun a => by match a with | ⟨0, _⟩ => rfl | ⟨1, _⟩ => rfl
  have el' : ∀ k : Fin 1024, lidx_main_v6 (ix2 r n) k = ix2 r k := fun k =>
    funext fun a => by match a with | ⟨0, _⟩ => rfl | ⟨1, _⟩ => rfl
  have er' : ∀ k : Fin 1024, idx_main_v5 (ridx_main_v6 (ix2 r n) k) = ix2 n k := fun k =>
    funext fun a => by match a with | ⟨0, _⟩ => rfl | ⟨1, _⟩ => rfl
  have eb : idx_main_v2 (idx_main_v3 (ix2 r n)) = ix1 n := funext fun a => by match a with | ⟨0, _⟩ => rfl
  have eb' : idx_main_v7 (idx_main_v8 (ix2 r n)) = ix1 n := funext fun a => by match a with | ⟨0, _⟩ => rfl
  simp only [el, er, el', er', eb, eb']
  rfl

/-- The input gate at `(r, j)`: the logistic function of the pre-activation at column `j`. -/
theorem inputGate_apply (r : Fin 16384) (j : Fin 1024) :
    val_main_v17 (F := Ideal) x0 x1 x3 x4 x5 x6 (ix2 r j) = Ideal.logistic (pre x0 x1 x3 x4 x5 x6 r (gateCol 0 j)) := by
  rw [val_main_v17_apply, val_main_v16_apply, val_main_cst_0_apply, val_main_v15_apply, val_main_v14_apply, val_main_cst_apply,
    val_main_v13_apply, val_main_v12_apply, val_main_v11_apply]
  have e : idx_main_v11 (ix2 r j) = ix2 r (gateCol 0 j) :=
    funext fun a => by match a with | ⟨0, _⟩ => rfl | ⟨1, _⟩ => exact Fin.ext (by show j.val = 1024 * 0 + j.val; omega)
  rw [e, preact_apply]
  exact Cert.Cell.logistic_spelt _

/-- The forget gate at `(r, j)`: the logistic function of the pre-activation at column `1024 + j`. -/
theorem forgetGate_apply (r : Fin 16384) (j : Fin 1024) :
    val_main_v24 (F := Ideal) x0 x1 x3 x4 x5 x6 (ix2 r j) = Ideal.logistic (pre x0 x1 x3 x4 x5 x6 r (gateCol 1 j)) := by
  rw [val_main_v24_apply, val_main_v23_apply, val_main_cst_2_apply, val_main_v22_apply, val_main_v21_apply, val_main_cst_1_apply,
    val_main_v20_apply, val_main_v19_apply, val_main_v18_apply]
  have e : idx_main_v18 (ix2 r j) = ix2 r (gateCol 1 j) :=
    funext fun a => by match a with | ⟨0, _⟩ => rfl | ⟨1, _⟩ => exact Fin.ext (by show 1024 + j.val = 1024 * 1 + j.val; omega)
  rw [e, preact_apply]
  exact Cert.Cell.logistic_spelt _

/-- The candidate at `(r, j)`: the hyperbolic tangent of the pre-activation at column `2048 + j`. -/
theorem candidate_apply (r : Fin 16384) (j : Fin 1024) :
    val_main_v26 (F := Ideal) x0 x1 x3 x4 x5 x6 (ix2 r j) = Ideal.tanh (pre x0 x1 x3 x4 x5 x6 r (gateCol 2 j)) := by
  rw [val_main_v26_apply, val_main_v25_apply]
  have e : idx_main_v25 (ix2 r j) = ix2 r (gateCol 2 j) :=
    funext fun a => by match a with | ⟨0, _⟩ => rfl | ⟨1, _⟩ => exact Fin.ext (by show 2048 + j.val = 1024 * 2 + j.val; omega)
  rw [e, preact_apply]
  rfl

/-- The output gate at `(r, j)`: the logistic function of the pre-activation at column `3072 + j`. -/
theorem outputGate_apply (r : Fin 16384) (j : Fin 1024) :
    val_main_v33 (F := Ideal) x0 x1 x3 x4 x5 x6 (ix2 r j) = Ideal.logistic (pre x0 x1 x3 x4 x5 x6 r (gateCol 3 j)) := by
  rw [val_main_v33_apply, val_main_v32_apply, val_main_cst_4_apply, val_main_v31_apply, val_main_v30_apply, val_main_cst_3_apply,
    val_main_v29_apply, val_main_v28_apply, val_main_v27_apply]
  have e : idx_main_v27 (ix2 r j) = ix2 r (gateCol 3 j) :=
    funext fun a => by match a with | ⟨0, _⟩ => rfl | ⟨1, _⟩ => exact Fin.ext (by show 3072 + j.val = 1024 * 3 + j.val; omega)
  rw [e, preact_apply]
  exact Cert.Cell.logistic_spelt _

/-- The reference's second result is the new cell state. -/
theorem cell_eq : val_main_v36 (F := Ideal) x0 x1 x2 x3 x4 x5 x6 = cell x0 x1 x2 x3 x4 x5 x6 := by
  funext i
  obtain ⟨r, j, rfl⟩ : ∃ (r : Fin 16384) (j : Fin 1024), i = ix2 r j := ⟨i 0, i 1, eq_ix2 i⟩
  rw [val_main_v36_apply, val_main_v34_apply, val_main_v35_apply, forgetGate_apply, inputGate_apply, candidate_apply]
  rfl

/-- The reference's first result is the new hidden state. -/
theorem hidden_eq : val_main_v38 (F := Ideal) x0 x1 x2 x3 x4 x5 x6 = hidden x0 x1 x2 x3 x4 x5 x6 := by
  funext i
  obtain ⟨r, j, rfl⟩ : ∃ (r : Fin 16384) (j : Fin 1024), i = ix2 r j := ⟨i 0, i 1, eq_ix2 i⟩
  rw [val_main_v38_apply, val_main_v37_apply, cell_eq, outputGate_apply]
  rfl

end Cert.ReferenceIdeal.RefCell

end
-- ==== Proof.KernelPreact.lean ====
/-
  The kernel body's gate pre-activations, read at an element.

  The body multiplies its 512-row blocks of `x` and `h` against the whole weight arrays, contracting the LAST axis of
  both operands (a product with the second operand transposed), into zero accumulators; adds the two products; then adds
  the two bias rows, each broadcast over the 512 rows. At `(p, q)` that is
      ((∑ₖ x(p,k)·Wi(q,k) + ∑ₖ h(p,k)·Wh(q,k)) + bi(0,q)) + bh(0,q).
  The narrowing of the activations to a shorter float format is the identity on extended reals.
-/
import proofs.«124631_j27144193310893_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Preact

open Cert.KernelIdeal Cert.KernelIdeal.Gen Idealize.ShloMosaic Idealize.ShloMosaic.ValueIdx

/-! ## The product's operand indices: rows from the result index, the contracted coordinate on both last axes -/

theorem lhs_rows (i : S512x4096.Idx) (q : dot_S512x1024_S4096x1024_S512x4096_1_1_0_0_n_n.contr.Idx) :
    (dot_S512x1024_S4096x1024_S512x4096_1_1_0_0_n_n.lhsIdx i q 0).val = (i 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl
theorem lhs_contracted (i : S512x4096.Idx) (q : dot_S512x1024_S4096x1024_S512x4096_1_1_0_0_n_n.contr.Idx) :
    (dot_S512x1024_S4096x1024_S512x4096_1_1_0_0_n_n.lhsIdx i q 1).val = (q ⟨0, by decide⟩).val :=
  dot_S512x1024_S4096x1024_S512x4096_1_1_0_0_n_n.lhsIdx_val_of_single rfl i q
theorem rhs_rows (i : S512x4096.Idx) (q : dot_S512x1024_S4096x1024_S512x4096_1_1_0_0_n_n.contr.Idx) :
    (dot_S512x1024_S4096x1024_S512x4096_1_1_0_0_n_n.rhsIdx i q 0).val = (i 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl
theorem rhs_contracted (i : S512x4096.Idx) (q : dot_S512x1024_S4096x1024_S512x4096_1_1_0_0_n_n.contr.Idx) :
    (dot_S512x1024_S4096x1024_S512x4096_1_1_0_0_n_n.rhsIdx i q 1).val = (q ⟨0, by decide⟩).val :=
  dot_S512x1024_S4096x1024_S512x4096_1_1_0_0_n_n.rhsIdx_val_of_single rfl i q

/-- A 512-row block against a weight array, both contracted over their last axis, into zero: at `(p, q)` the sum over
    `k` of the block's row `p` times the weight array's row `q`. -/
theorem blockDot_apply {φ₁ φ₂ : FTy} (a : FVec Ideal S512x1024 φ₁) (w : FVec Ideal S4096x1024 φ₂) (p : Fin 512) (q : Fin 4096) :
    matmul dot_S512x1024_S4096x1024_S512x4096_1_1_0_0_n_n none a w (constant S512x4096 .f32 0x00000000#32) (ix2 p q)
      = ∑ k : Fin 1024, a (ix2 p k) * w (ix2 q k) := by
  show FloatOps.matmul dot_S512x1024_S4096x1024_S512x4096_1_1_0_0_n_n none a w (constant S512x4096 .f32 0x00000000#32) (ix2 p q) = _
  rw [Ideal.matmul_constant_zero_apply, ← Equiv.sum_comp (contrEquiv1 dot_S512x1024_S4096x1024_S512x4096_1_1_0_0_n_n 1024 rfl rfl).symm]
  refine Finset.sum_congr rfl fun k _ => ?_
  have hk := contrEquiv1_symm_val dot_S512x1024_S4096x1024_S512x4096_1_1_0_0_n_n 1024 rfl rfl k
  have el : dot_S512x1024_S4096x1024_S512x4096_1_1_0_0_n_n.lhsIdx (ix2 p q) ((contrEquiv1 dot_S512x1024_S4096x1024_S512x4096_1_1_0_0_n_n 1024 rfl rfl).symm k) = ix2 p k := funext fun a => Fin.ext (by
    match a with
    | ⟨0, _⟩ => exact lhs_rows _ _
    | ⟨1, _⟩ => exact (lhs_contracted _ _).trans hk)
  have er : dot_S512x1024_S4096x1024_S512x4096_1_1_0_0_n_n.rhsIdx (ix2 p q) ((contrEquiv1 dot_S512x1024_S4096x1024_S512x4096_1_1_0_0_n_n 1024 rfl rfl).symm k) = ix2 q k := funext fun a => Fin.ext (by
    match a with
    | ⟨0, _⟩ => exact rhs_rows _ _
    | ⟨1, _⟩ => exact (rhs_contracted _ _).trans hk)
  rw [el, er]

/-- The body's summed pre-activations at `(p, q)`, from its loaded blocks. -/
theorem preact_apply (v0 v2 : Vec Ideal S512x1024 .f32) (v4 v6 : Vec Ideal S4096x1024 .bf16) (v11 v15 : Vec Ideal S1x4096 .f32)
    (p : Fin 512) (q : Fin 4096) :
    k0_pay1 (F := Ideal) v0 v2 v4 v6 v11 v15 (ix2 p q)
      = (((∑ k : Fin 1024, v0 (ix2 p k) * v4 (ix2 q k)) + (∑ k : Fin 1024, v2 (ix2 p k) * v6 (ix2 q k)))
          + v11 (ix2 (0 : Fin 1) q)) + v15 (ix2 (0 : Fin 1) q) := by
  unfold k0_pay1
  simp only [shapeCast_self]
  rw [addf_apply, addf_apply, addf_apply, blockDot_apply, blockDot_apply, broadcastTo_1b_ab_apply, broadcastTo_1b_ab_apply]
  rfl

end Cert.KernelIdeal.Preact

end
-- ==== Proof.KernelBlock.lean ====
/-
  One grid point's work, over blocks given as variables.

  Suppose a point's seven input blocks are what the pipeline stages for block number `b` of 512 batch rows: rows
  `512·b + p` of `x`, `h` and `c`, the whole of the two weight arrays, and the two bias vectors as single rows. Then what
  the body leaves in its two output blocks at `(p, j)` is the specification's hidden and cell state at `(512·b + p, j)`.
  The body adds the two products before the two biases and the specification adds each product to its own bias: the same
  sum (`regroup`). The four gate slices of the body read the pre-activations at the columns `j`, `1024 + j`, `2048 + j`,
  `3072 + j`, the specification's gate columns.
-/
import proofs.«124631_j27144193310893_1_alg».proof.Proof.Gen.KernelIdeal.Value
import proofs.«124631_j27144193310893_1_alg».proof.Proof.KernelPreact
import proofs.«124631_j27144193310893_1_alg».proof.Proof.CellSpec

noncomputable section

namespace Cert.KernelIdeal.Block

open Cert.KernelIdeal Cert.KernelIdeal.Gen Idealize.ShloMosaic Idealize.ShloMosaic.ValueIdx
open Cert.Cell (pre rowDot gateCol cellAt hiddenAt)

/-- Row `p` of the `b`-th block of 512 batch rows. -/
def blockRow (b : Nat) (hb : b < 32) (p : Fin 512) : Fin 16384 := ⟨512 * b + p.val, by have := p.isLt; omega⟩

theorem zero_offsets : (![0, 0] : Fin 2 → Nat) = fun _ => 0 := funext fun a => by fin_cases a <;> rfl

variable (x h cc : FVec Ideal S16384x1024 .f32) (wi wh : FVec Ideal S4096x1024 .f32) (bi bh : FVec Ideal S4096 .f32)
  (X0 X1 X2 : Vec Ideal S512x1024 .f32) (X3 X4 : Vec Ideal S4096x1024 .bf16) (X5 X6 : Vec Ideal S1x4096 .f32)
  (b : Nat) (hb : b < 32)

/-- The body's pre-activation at `(p, n)` is the specification's at row `512·b + p`. -/
theorem pre_block
    (hX0 : ∀ (p : Fin 512) (k : Fin 1024), X0 (ix2 p k) = x (ix2 (blockRow b hb p) k))
    (hX1 : ∀ (p : Fin 512) (k : Fin 1024), X1 (ix2 p k) = h (ix2 (blockRow b hb p) k))
    (hX3 : ∀ (n : Fin 4096) (k : Fin 1024), X3 (ix2 n k) = wi (ix2 n k))
    (hX4 : ∀ (n : Fin 4096) (k : Fin 1024), X4 (ix2 n k) = wh (ix2 n k))
    (hX5 : ∀ n : Fin 4096, X5 (ix2 (0 : Fin 1) n) = bi (ix1 n))
    (hX6 : ∀ n : Fin 4096, X6 (ix2 (0 : Fin 1) n) = bh (ix1 n))
    (p : Fin 512) (n : Fin 4096) :
    k0_pay1 (F := Ideal) X0 X1 X3 X4 X5 X6 (ix2 p n) = pre x h wi wh bi bh (blockRow b hb p) n := by
  rw [Preact.preact_apply]
  simp only [hX0, hX1, hX3, hX4, hX5, hX6]
  rw [Cert.Cell.regroup]
  rfl

/-- The block the body leaves in its second output (the new cell state) at `(p, j)`. -/
theorem cell_block
    (hX0 : ∀ (p : Fin 512) (k : Fin 1024), X0 (ix2 p k) = x (ix2 (blockRow b hb p) k))
    (hX1 : ∀ (p : Fin 512) (k : Fin 1024), X1 (ix2 p k) = h (ix2 (blockRow b hb p) k))
    (hX2 : ∀ (p : Fin 512) (k : Fin 1024), X2 (ix2 p k) = cc (ix2 (blockRow b hb p) k))
    (hX3 : ∀ (n : Fin 4096) (k : Fin 1024), X3 (ix2 n k) = wi (ix2 n k))
    (hX4 : ∀ (n : Fin 4096) (k : Fin 1024), X4 (ix2 n k) = wh (ix2 n k))
    (hX5 : ∀ n : Fin 4096, X5 (ix2 (0 : Fin 1) n) = bi (ix1 n))
    (hX6 : ∀ n : Fin 4096, X6 (ix2 (0 : Fin 1) n) = bh (ix1 n))
    (p : Fin 512) (j : Fin 1024) :
    Value.E8 (F := Ideal) X2 X0 X1 X3 X4 X5 X6 (ix2 p j) = cellAt x h cc wi wh bi bh (blockRow b hb p) j := by
  have e0 : Value.ix8_0 (ix2 p j) = ix2 p j := funext fun a => by match a with | ⟨0, _⟩ => rfl | ⟨1, _⟩ => rfl
  have e1 : Value.ix8_1 (ix2 p j) = ix2 p (gateCol 1 j) := funext fun a => by
    match a with | ⟨0, _⟩ => rfl | ⟨1, _⟩ => exact Fin.ext (by show j.val + 1024 = 1024 * 1 + j.val; omega)
  have e2 : Value.ix8_2 (ix2 p j) = ix2 p (gateCol 0 j) := funext fun a => by
    match a with | ⟨0, _⟩ => rfl | ⟨1, _⟩ => exact Fin.ext (by show j.val = 1024 * 0 + j.val; omega)
  have e3 : Value.ix8_3 (ix2 p j) = ix2 p (gateCol 2 j) := funext fun a => by
    match a with | ⟨0, _⟩ => rfl | ⟨1, _⟩ => exact Fin.ext (by show j.val + 2048 = 1024 * 2 + j.val; omega)
  simp only [Value.E8, e0, e1, e2, e3, pre_block x h wi wh bi bh X0 X1 X3 X4 X5 X6 b hb hX0 hX1 hX3 hX4 hX5 hX6, hX2]
  rfl

/-- The block the body leaves in its first output (the new hidden state) at `(p, j)`. -/
theorem hidden_block
    (hX0 : ∀ (p : Fin 512) (k : Fin 1024), X0 (ix2 p k) = x (ix2 (blockRow b hb p) k))
    (hX1 : ∀ (p : Fin 512) (k : Fin 1024), X1 (ix2 p k) = h (ix2 (blockRow b hb p) k))
    (hX2 : ∀ (p : Fin 512) (k : Fin 1024), X2 (ix2 p k) = cc (ix2 (blockRow b hb p) k))
    (hX3 : ∀ (n : Fin 4096) (k : Fin 1024), X3 (ix2 n k) = wi (ix2 n k))
    (hX4 : ∀ (n : Fin 4096) (k : Fin 1024), X4 (ix2 n k) = wh (ix2 n k))
    (hX5 : ∀ n : Fin 4096, X5 (ix2 (0 : Fin 1) n) = bi (ix1 n))
    (hX6 : ∀ n : Fin 4096, X6 (ix2 (0 : Fin 1) n) = bh (ix1 n))
    (p : Fin 512) (j : Fin 1024) :
    Value.E7 (F := Ideal) X2 X0 X1 X3 X4 X5 X6 (ix2 p j) = hiddenAt x h cc wi wh bi bh (blockRow b hb p) j := by
  have e0 : Value.ix7_0 (ix2 p j) = ix2 p j := funext fun a => by match a with | ⟨0, _⟩ => rfl | ⟨1, _⟩ => rfl
  have e1 : Value.ix7_1 (ix2 p j) = ix2 p (gateCol 1 j) := funext fun a => by
    match a with | ⟨0, _⟩ => rfl | ⟨1, _⟩ => exact Fin.ext (by show j.val + 1024 = 1024 * 1 + j.val; omega)
  have e2 : Value.ix7_2 (ix2 p j) = ix2 p (gateCol 0 j) := funext fun a => by
    match a with | ⟨0, _⟩ => rfl | ⟨1, _⟩ => exact Fin.ext (by show j.val = 1024 * 0 + j.val; omega)
  have e3 : Value.ix7_3 (ix2 p j) = ix2 p (gateCol 2 j) := funext fun a => by
    match a with | ⟨0, _⟩ => rfl | ⟨1, _⟩ => exact Fin.ext (by show j.val + 2048 = 1024 * 2 + j.val; omega)
  have e4 : Value.ix7_4 (ix2 p j) = ix2 p (gateCol 3 j) := funext fun a => by
    match a with | ⟨0, _⟩ => rfl | ⟨1, _⟩ => exact Fin.ext (by show j.val + 3072 = 1024 * 3 + j.val; omega)
  simp only [Value.E7, e0, e1, e2, e3, e4, pre_block x h wi wh bi bh X0 X1 X3 X4 X5 X6 b hb hX0 hX1 hX3 hX4 hX5 hX6, hX2]
  rfl

/-- What the body leaves in its first output's staging buffer, from the staged blocks themselves. -/
theorem out_hidden_apply (y : S512x1024.Idx) :
    out0_7 (F := Ideal) X0 X1 X2 X3 X4 X5 X6 y = Value.E7 X2 X0 X1 X3 X4 X5 X6 y := by
  unfold out0_7
  rw [Value.canon7_eq]
  simp only [View.ld_unit_zero (S := S512x1024) zero_offsets, View.ld_unit_zero (S := S4096x1024) zero_offsets,
    View.ld_unit_zero (S := S1x4096) zero_offsets]

/-- What the body leaves in its second output's staging buffer, from the staged blocks themselves. -/
theorem out_cell_apply (y : S512x1024.Idx) :
    out0_8 (F := Ideal) X0 X1 X2 X3 X4 X5 X6 y = Value.E8 X2 X0 X1 X3 X4 X5 X6 y := by
  unfold out0_8
  rw [Value.canon8_eq]
  simp only [View.ld_unit_zero (S := S512x1024) zero_offsets, View.ld_unit_zero (S := S4096x1024) zero_offsets,
    View.ld_unit_zero (S := S1x4096) zero_offsets]

end Cert.KernelIdeal.Block

end
-- ==== Proof.KernelArrays.lean ====
/-
  The kernel's two result arrays after its run are the specification's hidden and cell state of the seven arguments.

  The grid has 32 points; point `t` stages rows `512·t … 512·t + 511` of `x`, `h` and `c` and writes the same rows of both
  results, and stages at every point the whole of the two narrowed weight arrays and of the two bias vectors reshaped to one
  row (the host operations before the kernel: a narrowing of the float format, the identity on extended reals, and a
  reshape). So what point `t` writes back is block `t` of the specification's arrays (`KernelBlock.lean`), the 32 blocks
  cover every row, and the arrays end holding the specification.
-/
import proofs.«124631_j27144193310893_1_alg».proof.Proof.KernelBlock
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Cell (cellAt hiddenAt cell hidden)
open Cert.KernelIdeal.Block (blockRow)

variable (m : (ℓ : Loc nD τ sig) → Buf (Elt Ideal) ℓ) (ρ : Dev nD → PrngReg)

/-! ## The index maps, decided over the 32 points -/

theorem point_lt (t : Fin cfg0.N) : t.val < 32 := Nat.lt_of_lt_of_eq t.isLt (show cfg0.N = 32 from N_0)

/-- The three activation windows and the two result windows move down one block of rows per point; the weight and bias
    windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The arrays the host operations write before the kernel -/

/-- The first narrowed weight array holds the first weight argument. -/
theorem narrowed_wi (c : Dev nD) :
    (V m c main_v0 : S4096x1024.Idx → EReal)
      = (truncf .bf16 (m ((c : Thread nD τ).loc main_arg3) : FVec Ideal S4096x1024 .f32) bitsLt_bf16_f32 : FVec Ideal S4096x1024 .bf16) := by
  dsimp only [Gen.V, Gen.hostOps0]; after_results

/-- The second narrowed weight array holds the second weight argument. -/
theorem narrowed_wh (c : Dev nD) :
    (V m c main_v1 : S4096x1024.Idx → EReal)
      = (truncf .bf16 (m ((c : Thread nD τ).loc main_arg4) : FVec Ideal S4096x1024 .f32) bitsLt_bf16_f32 : FVec Ideal S4096x1024 .bf16) := by
  dsimp only [Gen.V, Gen.hostOps0]; after_results

/-- The first bias row is the first bias vector, reshaped. -/
theorem row_bi (c : Dev nD) :
    (V m c main_v2 : S1x4096.Idx → EReal) = shapeCast S1x4096 (m ((c : Thread nD τ).loc main_arg5)) shapeCasts_S4096_S1x4096 := by
  dsimp only [Gen.V, Gen.hostOps0]; after_results; rfl

/-- The second bias row is the second bias vector, reshaped. -/
theorem row_bh (c : Dev nD) :
    (V m c main_v3 : S1x4096.Idx → EReal) = shapeCast S1x4096 (m ((c : Thread nD τ).loc main_arg6)) shapeCasts_S4096_S1x4096 := by
  dsimp only [Gen.V, Gen.hostOps0]; after_results; rfl

/-! ## Each window's block at a point, read off the arguments -/

theorem block_x (c : Dev nD) (t : Fin cfg0.N) (p : Fin 512) (k : Fin 1024) :
    (iblk m c 0 t : Vec Ideal S512x1024 .f32) (ix2 p k) = m ((c : Thread nD τ).loc main_arg0) (ix2 (blockRow t.val (point_lt t) p) k) := by
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

theorem block_h (c : Dev nD) (t : Fin cfg0.N) (p : Fin 512) (k : Fin 1024) :
    (iblk m c 1 t : Vec Ideal S512x1024 .f32) (ix2 p k) = m ((c : Thread nD τ).loc main_arg1) (ix2 (blockRow t.val (point_lt t) p) k) := by
  show V m c main_arg1 (((cfg0.win 1).blk t).view.emb (ix2 p k)) = _
  rw [V_main_arg1]
  refine congrArg _ (funext fun a => Fin.ext ?_)
  obtain ⟨-, -, e0, e1, -⟩ := idx_facts t
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

theorem block_c (c : Dev nD) (t : Fin cfg0.N) (p : Fin 512) (k : Fin 1024) :
    (iblk m c 2 t : Vec Ideal S512x1024 .f32) (ix2 p k) = m ((c : Thread nD τ).loc main_arg2) (ix2 (blockRow t.val (point_lt t) p) k) := by
  show V m c main_arg2 (((cfg0.win 2).blk t).view.emb (ix2 p k)) = _
  rw [V_main_arg2]
  refine congrArg _ (funext fun a => Fin.ext ?_)
  obtain ⟨-, -, -, -, e0, e1, -⟩ := idx_facts t
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

theorem block_wi (c : Dev nD) (t : Fin cfg0.N) (n : Fin 4096) (k : Fin 1024) :
    (iblk m c 3 t : Vec Ideal S4096x1024 .bf16) (ix2 n k) = m ((c : Thread nD τ).loc main_arg3) (ix2 n k) := by
  show (V m c main_v0 : S4096x1024.Idx → EReal) (((cfg0.win 3).blk t).view.emb (ix2 n k)) = _
  rw [narrowed_wi]
  show m ((c : Thread nD τ).loc main_arg3) (((cfg0.win 3).blk t).view.emb (ix2 n k)) = _
  refine congrArg _ (funext fun a => Fin.ext ?_)
  obtain ⟨-, -, -, -, -, -, e0, e1, -⟩ := idx_facts t
  match a with
  | ⟨0, _⟩ => show win0_3.index t (0 : Fin 2) * 4096 + 1 * n.val = n.val; rw [e0]; omega
  | ⟨1, _⟩ => show win0_3.index t (1 : Fin 2) * 1024 + 1 * k.val = k.val; rw [e1]; omega

theorem block_wh (c : Dev nD) (t : Fin cfg0.N) (n : Fin 4096) (k : Fin 1024) :
    (iblk m c 4 t : Vec Ideal S4096x1024 .bf16) (ix2 n k) = m ((c : Thread nD τ).loc main_arg4) (ix2 n k) := by
  show (V m c main_v1 : S4096x1024.Idx → EReal) (((cfg0.win 4).blk t).view.emb (ix2 n k)) = _
  rw [narrowed_wh]
  show m ((c : Thread nD τ).loc main_arg4) (((cfg0.win 4).blk t).view.emb (ix2 n k)) = _
  refine congrArg _ (funext fun a => Fin.ext ?_)
  obtain ⟨-, -, -, -, -, -, -, -, e0, e1, -⟩ := idx_facts t
  match a with
  | ⟨0, _⟩ => show win0_4.index t (0 : Fin 2) * 4096 + 1 * n.val = n.val; rw [e0]; omega
  | ⟨1, _⟩ => show win0_4.index t (1 : Fin 2) * 1024 + 1 * k.val = k.val; rw [e1]; omega

theorem block_bi (c : Dev nD) (t : Fin cfg0.N) (n : Fin 4096) :
    (iblk m c 5 t : Vec Ideal S1x4096 .f32) (ix2 (0 : Fin 1) n) = m ((c : Thread nD τ).loc main_arg5) (ix1 n) := by
  show (V m c main_v2 : S1x4096.Idx → EReal) (((cfg0.win 5).blk t).view.emb (ix2 (0 : Fin 1) n)) = _
  rw [row_bi]
  obtain ⟨-, -, -, -, -, -, -, -, -, -, e0, e1, -⟩ := idx_facts t
  have ei : ((cfg0.win 5).blk t).view.emb (ix2 (0 : Fin 1) n) = ix2 (0 : Fin 1) n := funext fun a => Fin.ext (by
    match a with
    | ⟨0, _⟩ => show win0_5.index t (0 : Fin 2) * 1 + 1 * 0 = 0; rw [e0]
    | ⟨1, _⟩ => show win0_5.index t (1 : Fin 2) * 4096 + 1 * n.val = n.val; rw [e1]; omega)
  rw [ei]
  exact shapeCast_a_1a_apply _ _ 0 n

theorem block_bh (c : Dev nD) (t : Fin cfg0.N) (n : Fin 4096) :
    (iblk m c 6 t : Vec Ideal S1x4096 .f32) (ix2 (0 : Fin 1) n) = m ((c : Thread nD τ).loc main_arg6) (ix1 n) := by
  show (V m c main_v3 : S1x4096.Idx → EReal) (((cfg0.win 6).blk t).view.emb (ix2 (0 : Fin 1) n)) = _
  rw [row_bh]
  obtain ⟨-, -, -, -, -, -, -, -, -, -, -, -, e0, e1, -⟩ := idx_facts t
  have ei : ((cfg0.win 6).blk t).view.emb (ix2 (0 : Fin 1) n) = ix2 (0 : Fin 1) n := funext fun a => Fin.ext (by
    match a with
    | ⟨0, _⟩ => show win0_6.index t (0 : Fin 2) * 1 + 1 * 0 = 0; rw [e0]
    | ⟨1, _⟩ => show win0_6.index t (1 : Fin 2) * 4096 + 1 * n.val = n.val; rw [e1]; omega)
  rw [ei]
  exact shapeCast_a_1a_apply _ _ 0 n

/-! ## The two result arrays -/

/-- The new hidden state of the arguments, as the first result's contents. -/
abbrev hiddenOf (c : Dev nD) : Buf (Elt Ideal) ((c : Thread nD τ).loc main_v4_0) :=
  hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The new cell state of the arguments, as the second result's contents. -/
abbrev cellOf (c : Dev nD) : Buf (Elt Ideal) ((c : Thread nD τ).loc main_v4_1) :=
  cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- What point `t` writes back to the first result is block `t` of the new hidden state. -/
theorem flushed_hidden (c : Dev nD) (t : Fin cfg0.N) :
    (dats m 0 c).flushed 7 t = ((cfg0.win 7).blk t).view.read (Elt Ideal) (hiddenOf m c) := by
  rw [Value.flushed7]
  funext y
  show out0_7 (iblk m c 0 t) (iblk m c 1 t) (iblk m c 2 t) (iblk m c 3 t) (iblk m c 4 t) (iblk m c 5 t) (iblk m c 6 t) y = hiddenOf m c (((cfg0.win 7).blk t).view.emb y)
  refine (congrArg (out0_7 (iblk m c 0 t) (iblk m c 1 t) (iblk m c 2 t) (iblk m c 3 t) (iblk m c 4 t) (iblk m c 5 t) (iblk m c 6 t)) (eq_ix2 (n0 := 512) (n1 := 1024) y)).trans ?_
  refine (Block.out_hidden_apply (iblk m c 0 t) (iblk m c 1 t) (iblk m c 2 t) (iblk m c 3 t) (iblk m c 4 t) (iblk m c 5 t) (iblk m c 6 t) (ix2 (y 0) (y 1))).trans ?_
  refine (Block.hidden_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk m c 0 t) (iblk m c 1 t) (iblk m c 2 t) (iblk m c 3 t) (iblk m c 4 t) (iblk m c 5 t) (iblk m c 6 t) t.val (point_lt t)
    (block_x m c t) (block_h m c t) (block_c m c t) (block_wi m c t) (block_wh m c t) (block_bi m c t) (block_bh m c t) (y 0) (y 1)).trans ?_
  show hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (blockRow t.val (point_lt t) (y 0)) (y 1)
    = hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((((cfg0.win 7).blk t).view.emb y) 0) ((((cfg0.win 7).blk t).view.emb y) 1)
  obtain ⟨-, -, -, -, -, -, -, -, -, -, -, -, -, -, e0, e1, -⟩ := idx_facts t
  have r0 : blockRow t.val (point_lt t) (y 0) = (((cfg0.win 7).blk t).view.emb y) 0 := Fin.ext (by
    show 512 * t.val + (y 0).val = win0_7.index t (0 : Fin 2) * 512 + 1 * (y 0).val; rw [e0]; omega)
  have r1 : y 1 = (((cfg0.win 7).blk t).view.emb y) 1 := Fin.ext (by
    show (y 1).val = win0_7.index t (1 : Fin 2) * 1024 + 1 * (y 1).val; rw [e1]; omega)
  rw [← r0, ← r1]

/-- What point `t` writes back to the second result is block `t` of the new cell state. -/
theorem flushed_cell (c : Dev nD) (t : Fin cfg0.N) :
    (dats m 0 c).flushed 8 t = ((cfg0.win 8).blk t).view.read (Elt Ideal) (cellOf m c) := by
  rw [Value.flushed8]
  funext y
  show out0_8 (iblk m c 0 t) (iblk m c 1 t) (iblk m c 2 t) (iblk m c 3 t) (iblk m c 4 t) (iblk m c 5 t) (iblk m c 6 t) y = cellOf m c (((cfg0.win 8).blk t).view.emb y)
  refine (congrArg (out0_8 (iblk m c 0 t) (iblk m c 1 t) (iblk m c 2 t) (iblk m c 3 t) (iblk m c 4 t) (iblk m c 5 t) (iblk m c 6 t)) (eq_ix2 (n0 := 512) (n1 := 1024) y)).trans ?_
  refine (Block.out_cell_apply (iblk m c 0 t) (iblk m c 1 t) (iblk m c 2 t) (iblk m c 3 t) (iblk m c 4 t) (iblk m c 5 t) (iblk m c 6 t) (ix2 (y 0) (y 1))).trans ?_
  refine (Block.cell_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (iblk m c 0 t) (iblk m c 1 t) (iblk m c 2 t) (iblk m c 3 t) (iblk m c 4 t) (iblk m c 5 t) (iblk m c 6 t) t.val (point_lt t)
    (block_x m c t) (block_h m c t) (block_c m c t) (block_wi m c t) (block_wh m c t) (block_bi m c t) (block_bh m c t) (y 0) (y 1)).trans ?_
  show cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (blockRow t.val (point_lt t) (y 0)) (y 1)
    = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ((((cfg0.win 8).blk t).view.emb y) 0) ((((cfg0.win 8).blk t).view.emb y) 1)
  obtain ⟨-, -, -, -, -, -, -, -, -, -, -, -, -, -, -, -, e0, e1⟩ := idx_facts t
  have r0 : blockRow t.val (point_lt t) (y 0) = (((cfg0.win 8).blk t).view.emb y) 0 := Fin.ext (by
    show 512 * t.val + (y 0).val = win0_8.index t (0 : Fin 2) * 512 + 1 * (y 0).val; rw [e0]; omega)
  have r1 : y 1 = (((cfg0.win 8).blk t).view.emb y) 1 := Fin.ext (by
    show (y 1).val = win0_8.index t (1 : Fin 2) * 1024 + 1 * (y 1).val; rw [e1]; omega)
  rw [← r0, ← r1]

/-- An index of the first result is in point `t`'s block iff each coordinate is in the block's range. -/
theorem mem_hidden_blk (t : Fin cfg0.N) (i : S16384x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v4_0).slice (win0_7.rect t)).set ↔ _
  rw [View.set_slice_whole, Rect.mem_set_unit]
  exact Iff.rfl

/-- An index of the second result is in point `t`'s block iff each coordinate is in the block's range. -/
theorem mem_cell_blk (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v4_1).slice (win0_8.rect t)).set ↔ _
  rw [View.set_slice_whole, Rect.mem_set_unit]
  exact Iff.rfl

/-- Row `r` lies in the block of point `r / 512`. -/
theorem point_of_row (i : S16384x1024.Idx) : (i 0).val / 512 < cfg0.N := by
  have h : (i 0).val < 16384 := (i 0).isLt
  rw [show cfg0.N = 32 from N_0]; omega

/-- The 32 blocks cover the first result. -/
theorem hidden_cover (i : S16384x1024.Idx) :
    ∃ t : Fin cfg0.N, (cfg0.win 7).flush t = true ∧ i ∈ ((cfg0.win 7).blk t).view.set := by
  have hi0 : (i 0).val < 16384 := (i 0).isLt
  have hi1 : (i 1).val < 1024 := (i 1).isLt
  refine ⟨⟨(i 0).val / 512, point_of_row i⟩, flush0_7 _, ?_⟩
  rw [mem_hidden_blk]
  obtain ⟨-, -, -, -, -, -, -, -, -, -, -, -, -, -, e0, e1, -⟩ := idx_facts ⟨(i 0).val / 512, point_of_row i⟩
  have e0' : win0_7.index ⟨(i 0).val / 512, point_of_row i⟩ (0 : Fin 2) = (i 0).val / 512 := e0
  intro a
  match a with
  | ⟨0, _⟩ =>
    show win0_7.index ⟨(i 0).val / 512, point_of_row i⟩ (0 : Fin 2) * 512 ≤ (i 0).val ∧ (i 0).val < win0_7.index ⟨(i 0).val / 512, point_of_row i⟩ (0 : Fin 2) * 512 + 512
    rw [e0']; omega
  | ⟨1, _⟩ =>
    show win0_7.index ⟨(i 0).val / 512, point_of_row i⟩ (1 : Fin 2) * 1024 ≤ (i 1).val ∧ (i 1).val < win0_7.index ⟨(i 0).val / 512, point_of_row i⟩ (1 : Fin 2) * 1024 + 1024
    rw [e1]; omega

/-- The 32 blocks cover the second result. -/
theorem cell_cover (i : S16384x1024.Idx) :
    ∃ t : Fin cfg0.N, (cfg0.win 8).flush t = true ∧ i ∈ ((cfg0.win 8).blk t).view.set := by
  have hi0 : (i 0).val < 16384 := (i 0).isLt
  have hi1 : (i 1).val < 1024 := (i 1).isLt
  refine ⟨⟨(i 0).val / 512, point_of_row i⟩, flush0_8 _, ?_⟩
  rw [mem_cell_blk]
  obtain ⟨-, -, -, -, -, -, -, -, -, -, -, -, -, -, -, -, e0, e1⟩ := idx_facts ⟨(i 0).val / 512, point_of_row i⟩
  have e0' : win0_8.index ⟨(i 0).val / 512, point_of_row i⟩ (0 : Fin 2) = (i 0).val / 512 := e0
  intro a
  match a with
  | ⟨0, _⟩ =>
    show win0_8.index ⟨(i 0).val / 512, point_of_row i⟩ (0 : Fin 2) * 512 ≤ (i 0).val ∧ (i 0).val < win0_8.index ⟨(i 0).val / 512, point_of_row i⟩ (0 : Fin 2) * 512 + 512
    rw [e0']; omega
  | ⟨1, _⟩ =>
    show win0_8.index ⟨(i 0).val / 512, point_of_row i⟩ (1 : Fin 2) * 1024 ≤ (i 1).val ∧ (i 1).val < win0_8.index ⟨(i 0).val / 512, point_of_row i⟩ (1 : Fin 2) * 1024 + 1024
    rw [e1]; omega

/-- After the run the first result holds the new hidden state. -/
theorem final_hidden (c : Dev nD) : (dats m 0 c).arrAt 7 cfg0.N = hiddenOf m c :=
  (dats m 0 c).arrAt_eq_of_cover 7 (hiddenOf m c) (fun t _ => flushed_hidden m c t) hidden_cover

/-- After the run the second result holds the new cell state. -/
theorem final_cell (c : Dev nD) : (dats m 0 c).arrAt 8 cfg0.N = cellOf m c :=
  (dats m 0 c).arrAt_eq_of_cover 8 (cellOf m c) (fun t _ => flushed_cell m c t) cell_cover

/-- Every weakly fair execution of the kernel program terminates with the two results at the specification's hidden and
    cell state of the arguments, and the arguments unchanged. -/
theorem run : θ_run defs (onTc (τ := τ) (main (F := Ideal))) ⟨m, fun _ => 0, ρ⟩ fun r => ∀ c : Dev nD,
      r.2.mem ((c : Thread nD τ).loc main_v4_0) = hiddenOf m c
      ∧ r.2.mem ((c : Thread nD τ).loc main_v4_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).2.1.trans (final_cell m c), (h c).2.2⟩)
    (Value.run_blocks m ρ)

end Cert.KernelIdeal.Arrays

end
-- ==== Proof.lean ====
/-
  One step of a long short-term memory cell: a tiled kernel against its array-language reference, equal over the
  extended reals.

  Both programs take a batch of inputs `x`, the previous hidden and cell states `h` and `c` (each 16384 × 1024), two weight
  arrays `Wi`, `Wh` (4096 × 1024) and two bias vectors `bi`, `bh` (4096), form the gate pre-activations
      x·Wiᵀ + h·Whᵀ + bi + bh                                    (16384 × 4096),
  cut them into four 1024-wide gates (input, forget, candidate, output), and return
      cell   = c · σ(forget) + σ(input) · tanh(candidate),
      hidden = tanh(cell) · σ(output).
  The kernel works on 32 blocks of 512 batch rows, multiplies each block against the whole weight arrays (narrowed to a
  shorter float format, which is the identity on extended reals) contracting both operands' last axes, adds the two
  products and then the two biases, and applies the logistic function as one operation. The reference transposes the
  weights, adds each product to its own bias and then the two sums, and spells the logistic function as the quotient
  `1 / (1 + exp (−p))`. Over the extended reals these are one function: addition is commutative and associative there (no
  finiteness of the inputs is needed), the sums over the contracted axis have the same terms, and the logistic function is
  that quotient by definition. `CellSpec.lean` states the function; `ReferenceCell.lean` reads the reference's two results as
  it; `KernelPreact.lean`, `KernelBlock.lean` and `KernelArrays.lean` read the kernel's two result arrays as it, block by block.

  The three frames: the two kernel programs' are the generated frame certificates; the reference has no kernel, and its
  frame is its generated run with the results dropped. No operation of the kernel was rewritten by the idealization, so
  there is nothing to preserve.
-/
import proofs.«124631_j27144193310893_1_alg».proof.Defs
import proofs.«124631_j27144193310893_1_alg».proof.Proof.Gen.Kernel
import proofs.«124631_j27144193310893_1_alg».proof.Proof.Gen.Kernel.Skeleton
import proofs.«124631_j27144193310893_1_alg».proof.Proof.Gen.Kernel.Launch
import proofs.«124631_j27144193310893_1_alg».proof.Proof.Gen.Kernel.Points
import proofs.«124631_j27144193310893_1_alg».proof.Proof.Gen.Kernel.Frame
import proofs.«124631_j27144193310893_1_alg».proof.Proof.Gen.KernelIdeal
import proofs.«124631_j27144193310893_1_alg».proof.Proof.Gen.KernelIdeal.Skeleton
import proofs.«124631_j27144193310893_1_alg».proof.Proof.Gen.KernelIdeal.Launch
import proofs.«124631_j27144193310893_1_alg».proof.Proof.Gen.KernelIdeal.Points
import proofs.«124631_j27144193310893_1_alg».proof.Proof.Gen.KernelIdeal.Frame
import proofs.«124631_j27144193310893_1_alg».proof.Proof.Gen.ReferenceIdeal
import proofs.«124631_j27144193310893_1_alg».proof.Proof.Gen.Pre_finite_inputs
import proofs.«124631_j27144193310893_1_alg».proof.Proof.Gen.KernelIdeal.Value
import proofs.«124631_j27144193310893_1_alg».proof.Proof.Gen.ReferenceIdeal.Run
import proofs.«124631_j27144193310893_1_alg».proof.Proof.Gen.ReferenceIdeal.Read
import proofs.«124631_j27144193310893_1_alg».proof.Proof.ReferenceCell
import proofs.«124631_j27144193310893_1_alg».proof.Proof.KernelArrays
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run ends with its arguments as they were. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel's two results and the reference's two results are the hidden and the cell state of arguments that agree. -/
theorem algebraic : Cert.algebraic_KernelIdeal_ReferenceIdeal := by
  intro m ρ m' ρ' _ hagree
  refine ⟨fun c => Cert.KernelIdeal.Arrays.hiddenOf m c, fun c => Cert.KernelIdeal.Arrays.cellOf m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v38_eq, Cert.ReferenceIdeal.RefCell.hidden_eq, h0, h1, h2, h3, h4, h5, h6]
  · obtain ⟨h0, h1, h2, h3, h4, h5, h6⟩ := hagree c
    rw [Cert.ReferenceIdeal.Read.val_main_v36_eq, Cert.ReferenceIdeal.RefCell.cell_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
